-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x21 : Shape := ⟨2, ![128, 21]⟩
abbrev S21 : Shape := ⟨1, ![21]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x21 : S_.BroadcastsInDim S128x21 (![] : Fin 0 → Fin S128x21.rank)
  reducesTo_S128x21_S_d0_1 : S128x21.ReducesTo [0, 1] S_
  bcast_S_S21 : S_.BroadcastsInDim S21 (![] : Fin 0 → Fin S21.rank)
  reducesTo_S21_S_d0 : S21.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v32 : IVec S_ 1) (main_c_12 : IVec S_ 32) : IVec S_ 1 :=
  let main_v33 : IVec S2x1600000 32 := broadcastInDim S2x1600000 ![] bcast_S_S2x1600000 main_c_12
  let main_v34 : IVec S2x1600000 1 := cmpi .slt main_arg1 main_v33
  let main_c_13 : IVec S_ 1 := constantI S_ 1 1#1
  let main_v35 : IVec S_ 1 := (fun x v => Host.reduce IntOp.andi x v reducesTo_S2x1600000_S_d0_1 h_S_) main_v34 main_c_13
  let main_v36 : IVec S_ 1 := andi main_v32 main_v35
  main_v36

def fn_part1 {F : FTy → Type} [FloatOps F] (main_arg1 : IVec S2x1600000 32) (main_arg5 : FVec F S128x21 .f32) (main_arg6 : FVec F S21 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x21 .f32 := Host.absf main_arg5
  let main_cst_6 : FVec F S_ .f32 := constant S_ .f32 0x7F800000#32
  let main_v20 : FVec F S128x21 .f32 := broadcastInDim S128x21 ![] bcast_S_S128x21 main_cst_6
  let main_v21 : IVec S128x21 1 := cmpf .olt main_v19 main_v20
  let main_c_7 : IVec S_ 1 := constantI S_ 1 1#1
  let main_v22 : IVec S_ 1 := (fun x v => Host.reduce IntOp.andi x v reducesTo_S128x21_S_d0_1 h_S_) main_v21 main_c_7
  let main_v23 : IVec S_ 1 := andi main_v18 main_v22
  let main_v24 : FVec F S21 .f32 := Host.absf main_arg6
  let main_cst_8 : FVec F S_ .f32 := constant S_ .f32 0x7F800000#32
  let main_v25 : FVec F S21 .f32 := broadcastInDim S21 ![] bcast_S_S21 main_cst_8
  let main_v26 : IVec S21 1 := cmpf .olt main_v24 main_v25
  let main_c_9 : IVec S_ 1 := constantI S_ 1 1#1
  let main_v27 : IVec S_ 1 := (fun x v => Host.reduce IntOp.andi x v reducesTo_S21_S_d0 h_S_) main_v26 main_c_9
  let main_v28 : IVec S_ 1 := andi main_v23 main_v27
  let main_c_10 : IVec S_ 32 := constantI S_ 32 4294917296#32
  let main_v29 : IVec S2x1600000 32 := broadcastInDim S2x1600000 ![] bcast_S_S2x1600000 main_c_10
  let main_v30 : IVec S2x1600000 1 := cmpi .sge main_arg1 main_v29
  let main_c_11 : IVec S_ 1 := constantI S_ 1 1#1
  let main_v31 : IVec S_ 1 := (fun x v => Host.reduce IntOp.andi x v reducesTo_S2x1600000_S_d0_1 h_S_) main_v30 main_c_11
  let main_v32 : IVec S_ 1 := andi main_v28 main_v31
  let main_c_12 : IVec S_ 32 := constantI S_ 32 50000#32
  fn_part2 (F := F) main_arg1 main_v32 main_c_12

def fn {F : FTy → Type} [FloatOps F] (main_arg0 : FVec F S50000x128 .f32) (main_arg1 : IVec S2x1600000 32) (main_arg2 : FVec F S128x128 .f32) (main_arg3 : FVec F S128x128 .f32) (main_arg4 : FVec F S128 .f32) (main_arg5 : FVec F S128x21 .f32) (main_arg6 : FVec F S21 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x21 : Shape := ⟨2, ![128, 21]⟩
abbrev S21 : Shape := ⟨1, ![21]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1600000x21 : Shape := ⟨2, ![1600000, 21]⟩
abbrev S6400x128 : Shape := ⟨2, ![6400, 128]⟩
abbrev S6400x21 : Shape := ⟨2, ![6400, 21]⟩
abbrev S1x128 : Shape := ⟨2, ![1, 128]⟩
abbrev S1x21 : Shape := ⟨2, ![1, 21]⟩

abbrev nBuf : Space → Nat
  | .hbm => 63
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x21, .f32⟩
  | .hbm, ⟨6, _⟩ => ⟨S21, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x128, .f32⟩
  | .hbm, ⟨30, _⟩ => ⟨S1600000x128, .i1⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S1600000x128, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x128, .f32⟩
  | .hbm, ⟨54, _⟩ => ⟨S1600000x128, .i1⟩
  | .hbm, ⟨55, _⟩ => ⟨S_, .f32⟩
  | .hbm, ⟨56, _⟩ => ⟨S1600000x128, .f32⟩
  | .hbm, ⟨57, _⟩ => ⟨S1600000x128, .f32⟩
  | .hbm, ⟨58, _⟩ => ⟨S1600000x128, .bf16⟩
  | .hbm, ⟨59, _⟩ => ⟨S128x128, .bf16⟩
  | .hbm, ⟨60, _⟩ => ⟨S128x128, .bf16⟩
  | .hbm, ⟨61, _⟩ => ⟨S128x21, .bf16⟩
  | .hbm, ⟨62, _⟩ => ⟨S1600000x21, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S128x21, .bf16⟩
  | .local _ .vmem, ⟨8, _⟩ => ⟨S21, .f32⟩
  | .local _ .vmem, ⟨9, _⟩ => ⟨S6400x21, .f32⟩
  | .local _ .vmem, ⟨10, _⟩ => ⟨S6400x21, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x21 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S21 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x21 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bitsLt_bf16_f32 : FTy.bits .bf16 < FTy.bits .f32
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x21_S128x21_0_0 : ∀ a, (![0, 0] : Fin 2 → Nat) a + S128x21.size a ≤ S128x21.size a
  h_S128x21 : 0 < S128x21.numel
  shapeCasts_S128x21_S128x21 : S128x21.ShapeCasts S128x21
  inb_S21_S21_0 : ∀ a, (![0] : Fin 1 → Nat) a + S21.size a ≤ S21.size a
  h_S21 : 0 < S21.numel
  shapeCasts_S21_S1x21 : S21.ShapeCasts S1x21
  broadcasts_S1x21_S6400x21 : S1x21.Broadcasts S6400x21
  inb_S6400x21_S6400x21_0_0 : ∀ a, (![0, 0] : Fin 2 → Nat) a + S6400x21.size a ≤ S6400x21.size a
  h_S6400x21 : 0 < S6400x21.numel
  gather_S50000x128_S1600000x1_S1600000x128_1_0_n_n_0_1_1128_wf : GatherDims.WF S50000x128 S1600000x1 S1600000x128 [1] [0] [] [0] [] 1 ![1, 128]
  dot_S6400x128_S128x128_S6400x128_1_0_0_1_n_n_wf : DotDims.WF S6400x128 S128x128 S6400x128 [1] [0] [0] [1] [] []
  dot_S6400x128_S128x21_S6400x21_1_0_0_1_n_n_wf : DotDims.WF S6400x128 S128x21 S6400x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .bf16 = 32 ∨ (Rect.block (s := S1600000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .bf16 = 32 ∨ (Rect.block (s := S1600000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x21.size a ≤ S128x21.size a
  hwx0_5 : ∀ i : grid0.Coords, EltTy.bits .bf16 = 32 ∨ (Rect.block (s := S128x21) S128x21.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S21.size a ≤ S21.size a
  hwx0_6 : ∀ i : grid0.Coords, EltTy.bits .f32 = 32 ∨ (Rect.block (s := S21) S21.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x21.size a ≤ S1600000x21.size a
  hwx0_7 : ∀ i : grid0.Coords, EltTy.bits .f32 = 32 ∨ (Rect.block (s := S1600000x21) S6400x21.size (cc0_transform_7 i) (hinb0_7 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x21_S6400x21_1_0_0_1_n_n : DotDims S6400x128 S128x21 S6400x21 where
  lhsContracting := [1]
  rhsContracting := [0]
  lhsNonContracting := [0]
  rhsNonContracting := [1]
  lhsBatch := []
  rhsBatch := []
  wf := dot_S6400x128_S128x21_S6400x21_1_0_0_1_n_n_wf

abbrev win0_0 : Pipeline.Window sig grid0 :=
  Pipeline.Window.ofSpec (Memref.whole main_v5) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x21.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S21.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S6400x21.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x21 : Shape := ⟨2, ![128, 21]⟩
abbrev S21 : Shape := ⟨1, ![21]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1600000x21 : Shape := ⟨2, ![1600000, 21]⟩
abbrev S1x21 : Shape := ⟨2, ![1, 21]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x21, .f32⟩
  | .hbm, ⟨6, _⟩ => ⟨S21, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S1600000x21, .f32⟩
  | .hbm, ⟨36, _⟩ => ⟨S1x21, .f32⟩
  | .hbm, ⟨37, _⟩ => ⟨S1600000x21, .f32⟩
  | .hbm, ⟨38, _⟩ => ⟨S1600000x21, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S21_S1x21_1 : S21.BroadcastsInDim S1x21 (![1] : Fin 1 → Fin S1x21.rank)
  bcast_S1x21_S1600000x21_0_1 : S1x21.BroadcastsInDim S1600000x21 (![0, 1] : Fin 2 → Fin S1600000x21.rank)
  gather_S50000x128_S1600000x1_S1600000x128_1_0_n_n_0_1_1128_wf : GatherDims.WF S50000x128 S1600000x1 S1600000x128 [1] [0] [] [0] [] 1 ![1, 128]
  dot_S1600000x128_S128x128_S1600000x128_1_0_0_1_n_n_wf : DotDims.WF S1600000x128 S128x128 S1600000x128 [1] [0] [0] [1] [] []
  dot_S1600000x128_S128x21_S1600000x21_1_0_0_1_n_n_wf : DotDims.WF S1600000x128 S128x21 S1600000x21 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x21_S1600000x21_1_0_0_1_n_n : DotDims S1600000x128 S128x21 S1600000x21 where
  lhsContracting := [1]
  rhsContracting := [0]
  lhsNonContracting := [0]
  rhsNonContracting := [1]
  lhsBatch := []
  rhsBatch := []
  wf := dot_S1600000x128_S128x21_S1600000x21_1_0_0_1_n_n_wf

class Facts : Prop extends Facts₀ where

variable [Facts]
-- ==== Proof.Logits.lean ====
/-
  Edge classification by two dense layers, as one function of the arrays.

  An edge has a source row `s` and a destination row `d` of 128 numbers each. Its fused feature `k` is
      fused k = Σ_j s j · Wsrc[j, k]  +  Σ_j d j · Wdst[j, k]  +  b[k],
  and its logit for class `c` is
      logit c = Σ_k fused k · Wcls[k, c]  +  bcls[c].
  `logits` lays this out over an array of `n` edges: entry `(e, c)` is the logit of class `c` for the edge whose
  rows are row `e` of the two [n, 128] arrays. Everything is over the extended reals; no law beyond the definitions
  is used anywhere, so no finiteness is assumed.
-/
import Idealize.ShloMosaic.PureOps.Ideal
import Idealize.ShloMosaic.Lib.ValueIdx

noncomputable section

namespace Cert.EdgeLogits

open Idealize.ShloMosaic Idealize.ShloMosaic.ValueIdx

/-- Fused feature `k` of an edge with rows `s`, `d`. -/
def fused (s d : Fin 128 → EReal) (wsrc wdst : (⟨2, ![128, 128]⟩ : Shape).Idx → EReal)
    (b : (⟨1, ![128]⟩ : Shape).Idx → EReal) (k : Fin 128) : EReal :=
  (∑ j : Fin 128, s j * wsrc (ix2 j k)) + (∑ j : Fin 128, d j * wdst (ix2 j k)) + b (ix1 k)

/-- Logit of class `c` of an edge with rows `s`, `d`. -/
def logit (s d : Fin 128 → EReal) (wsrc wdst : (⟨2, ![128, 128]⟩ : Shape).Idx → EReal)
    (b : (⟨1, ![128]⟩ : Shape).Idx → EReal) (wcls : (⟨2, ![128, 21]⟩ : Shape).Idx → EReal)
    (bcls : (⟨1, ![21]⟩ : Shape).Idx → EReal) (c : Fin 21) : EReal :=
  (∑ k : Fin 128, fused s d wsrc wdst b k * wcls (ix2 k c)) + bcls (ix1 c)

/-- Row `e` of an [n, 128] array. -/
def row {n : Nat} (x : (⟨2, ![n, 128]⟩ : Shape).Idx → EReal) (e : Fin n) : Fin 128 → EReal := fun j => x (ix2 e j)

/-- The [n, 21] array of logits of `n` edges. -/
def logits {n : Nat} (src dst : (⟨2, ![n, 128]⟩ : Shape).Idx → EReal)
    (wsrc wdst : (⟨2, ![128, 128]⟩ : Shape).Idx → EReal) (b : (⟨1, ![128]⟩ : Shape).Idx → EReal)
    (wcls : (⟨2, ![128, 21]⟩ : Shape).Idx → EReal) (bcls : (⟨1, ![21]⟩ : Shape).Idx → EReal) :
    (⟨2, ![n, 21]⟩ : Shape).Idx → EReal :=
  fun i => logit (row src (i 0)) (row dst (i 0)) wsrc wdst b wcls bcls (i 1)

theorem logits_apply {n : Nat} (src dst : (⟨2, ![n, 128]⟩ : Shape).Idx → EReal)
    (wsrc wdst : (⟨2, ![128, 128]⟩ : Shape).Idx → EReal) (b : (⟨1, ![128]⟩ : Shape).Idx → EReal)
    (wcls : (⟨2, ![128, 21]⟩ : Shape).Idx → EReal) (bcls : (⟨1, ![21]⟩ : Shape).Idx → EReal) (e : Fin n) (c : Fin 21) :
    logits src dst wsrc wdst b wcls bcls (ix2 e c) = logit (row src e) (row dst e) wsrc wdst b wcls bcls c := rfl

end Cert.EdgeLogits

end
-- ==== Proof.BlockLogits.lean ====
/-
  What the kernel body computes from one block of 6400 edges.

  The body loads a [6400, 128] block of source rows and one of destination rows, the three weight arrays and the two
  biases whole, and stores a [6400, 21] block. Its three matrix products go into zero accumulators, so at the ideal
  instance each is a plain sum over the contracted axis; the two biases are a [128] (a [21]) vector laid as one row
  and repeated down the 6400 rows; the change of float format between the two layers is the identity. So entry
  (p, c) of the stored block is the logit of class c of the edge whose rows are row p of the two loaded blocks.
-/
import proofs.«418233_j57312043598044_1_alg».proof.Proof.Gen.KernelIdeal.Skeleton
import proofs.«418233_j57312043598044_1_alg».proof.Proof.Logits
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen
open Idealize.ShloMosaic Idealize.ShloMosaic.TcCoe Idealize.SL.Sem Idealize.ShloMosaic.ValueIdx Idealize.ShloMosaic.Pipeline

/-! ## The two contractions' operand indices, axis by axis -/

theorem lhs_fuse_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_fuse_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_fuse_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_fuse_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

theorem lhs_cls_0 (i : S6400x21.Idx) (q : dot_S6400x128_S128x21_S6400x21_1_0_0_1_n_n.contr.Idx) :
    (dot_S6400x128_S128x21_S6400x21_1_0_0_1_n_n.lhsIdx i q 0).val = (i 0).val := by
  unfold DotDims.lhsIdx
  rw [dif_neg (show ¬(0 : Fin S6400x128.rank) ∈ dot_S6400x128_S128x21_S6400x21_1_0_0_1_n_n.lhsBatch by decide), dif_pos (show (0 : Fin S6400x128.rank) ∈ dot_S6400x128_S128x21_S6400x21_1_0_0_1_n_n.lhsNonContracting by decide)]
  rfl
theorem lhs_cls_1 (i : S6400x21.Idx) (q : dot_S6400x128_S128x21_S6400x21_1_0_0_1_n_n.contr.Idx) :
    (dot_S6400x128_S128x21_S6400x21_1_0_0_1_n_n.lhsIdx i q 1).val = (q ⟨0, by decide⟩).val :=
  dot_S6400x128_S128x21_S6400x21_1_0_0_1_n_n.lhsIdx_val_of_single rfl i q
theorem rhs_cls_0 (i : S6400x21.Idx) (q : dot_S6400x128_S128x21_S6400x21_1_0_0_1_n_n.contr.Idx) :
    (dot_S6400x128_S128x21_S6400x21_1_0_0_1_n_n.rhsIdx i q 0).val = (q ⟨0, by decide⟩).val :=
  dot_S6400x128_S128x21_S6400x21_1_0_0_1_n_n.rhsIdx_val_of_single rfl i q
theorem rhs_cls_1 (i : S6400x21.Idx) (q : dot_S6400x128_S128x21_S6400x21_1_0_0_1_n_n.contr.Idx) :
    (dot_S6400x128_S128x21_S6400x21_1_0_0_1_n_n.rhsIdx i q 1).val = (i 1).val := by
  unfold DotDims.rhsIdx
  rw [dif_neg (show ¬(1 : Fin S128x21.rank) ∈ dot_S6400x128_S128x21_S6400x21_1_0_0_1_n_n.rhsBatch by decide), dif_pos (show (1 : Fin S128x21.rank) ∈ dot_S6400x128_S128x21_S6400x21_1_0_0_1_n_n.rhsNonContracting by decide)]
  rfl

/-! ## The products as sums -/

/-- A [6400, 128] block times a [128, 128] weight, into zero: entry (p, k) is the sum over j of l[p, j]·r[j, k]. -/
theorem matmul_fuse (l : FVec Ideal S6400x128 .bf16) (r : FVec Ideal S128x128 .bf16) (p : Fin 6400) (q : Fin 128) :
    matmul dot_S6400x128_S128x128_S6400x128_1_0_0_1_n_n none l r (constant (F := Ideal) S6400x128 .f32 0x00000000#32) (ix2 p q)
      = ∑ j : Fin 128, l (ix2 p j) * r (ix2 j q) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun j _ => ?_
  have hj := ValueIdx.contrEquiv1_symm_val dot_S6400x128_S128x128_S6400x128_1_0_0_1_n_n 128 rfl rfl j
  have el : dot_S6400x128_S128x128_S6400x128_1_0_0_1_n_n.lhsIdx (ix2 p q) ((ValueIdx.contrEquiv1 dot_S6400x128_S128x128_S6400x128_1_0_0_1_n_n 128 rfl rfl).symm j) = ix2 p j := funext fun a => Fin.ext (by
    match a with
    | ⟨0, _⟩ => exact lhs_fuse_0 _ _
    | ⟨1, _⟩ => exact (lhs_fuse_1 _ _).trans hj)
  have er : dot_S6400x128_S128x128_S6400x128_1_0_0_1_n_n.rhsIdx (ix2 p q) ((ValueIdx.contrEquiv1 dot_S6400x128_S128x128_S6400x128_1_0_0_1_n_n 128 rfl rfl).symm j) = ix2 j q := funext fun a => Fin.ext (by
    match a with
    | ⟨0, _⟩ => exact (rhs_fuse_0 _ _).trans hj
    | ⟨1, _⟩ => exact rhs_fuse_1 _ _)
  rw [el, er]

/-- The fused block times the [128, 21] classifier weight, into zero: entry (p, c) is the sum over k of l[p, k]·r[k, c]. -/
theorem matmul_cls (l : FVec Ideal S6400x128 .bf16) (r : FVec Ideal S128x21 .bf16) (p : Fin 6400) (q : Fin 21) :
    matmul dot_S6400x128_S128x21_S6400x21_1_0_0_1_n_n none l r (constant (F := Ideal) S6400x21 .f32 0x00000000#32) (ix2 p q)
      = ∑ j : Fin 128, l (ix2 p j) * r (ix2 j q) := by
  simp only [matmul]
  rw [Ideal.matmul_constant_zero_apply, ← Equiv.sum_comp (ValueIdx.contrEquiv1 dot_S6400x128_S128x21_S6400x21_1_0_0_1_n_n 128 rfl rfl).symm]
  refine Finset.sum_congr rfl fun j _ => ?_
  have hj := ValueIdx.contrEquiv1_symm_val dot_S6400x128_S128x21_S6400x21_1_0_0_1_n_n 128 rfl rfl j
  have el : dot_S6400x128_S128x21_S6400x21_1_0_0_1_n_n.lhsIdx (ix2 p q) ((ValueIdx.contrEquiv1 dot_S6400x128_S128x21_S6400x21_1_0_0_1_n_n 128 rfl rfl).symm j) = ix2 p j := funext fun a => Fin.ext (by
    match a with
    | ⟨0, _⟩ => exact lhs_cls_0 _ _
    | ⟨1, _⟩ => exact (lhs_cls_1 _ _).trans hj)
  have er : dot_S6400x128_S128x21_S6400x21_1_0_0_1_n_n.rhsIdx (ix2 p q) ((ValueIdx.contrEquiv1 dot_S6400x128_S128x21_S6400x21_1_0_0_1_n_n 128 rfl rfl).symm j) = ix2 j q := funext fun a => Fin.ext (by
    match a with
    | ⟨0, _⟩ => exact (rhs_cls_0 _ _).trans hj
    | ⟨1, _⟩ => exact rhs_cls_1 _ _)
  rw [el, er]

/-! ## The biases, repeated down the rows -/

theorem bias_fuse (x4 : FVec Ideal S128 .f32) (p : Fin 6400) (k : Fin 128) :
    broadcastTo S6400x128 (shapeCast S1x128 x4 shapeCasts_S128_S1x128) broadcasts_S1x128_S6400x128 (ix2 p k) = x4 (ix1 k) :=
  (broadcastTo_1b_ab_apply _ _ p k).trans (shapeCast_a_1a_apply x4 _ 0 k)

theorem bias_cls (x6 : FVec Ideal S21 .f32) (p : Fin 6400) (c : Fin 21) :
    broadcastTo S6400x21 (shapeCast S1x21 x6 shapeCasts_S21_S1x21) broadcasts_S1x21_S6400x21 (ix2 p c) = x6 (ix1 c) :=
  (broadcastTo_1b_ab_apply _ _ p c).trans (shapeCast_a_1a_apply x6 _ 0 c)

/-! ## The stored block -/

/-- ENTRY (p, c) OF THE STORED BLOCK is the logit of class c of the edge at row p of the loaded blocks. -/
theorem pay_apply (x0 x1 : FVec Ideal S6400x128 .bf16) (x2 x3 : FVec Ideal S128x128 .bf16) (x4 : FVec Ideal S128 .f32)
    (x5 : FVec Ideal S128x21 .bf16) (x6 : FVec Ideal S21 .f32) (p : Fin 6400) (c : Fin 21) :
    k0_pay1 (F := Ideal) x0 x1 x2 x3 x4 x5 x6 (ix2 p c)
      = Cert.EdgeLogits.logit (Cert.EdgeLogits.row (n := 6400) x0 p) (Cert.EdgeLogits.row (n := 6400) x1 p) x2 x3 x4 x5 x6 c := by
  unfold k0_pay1
  simp only [shapeCast_self]
  refine (addf_apply _ _ _).trans ?_
  rw [matmul_cls, bias_cls]
  unfold Cert.EdgeLogits.logit
  refine congrArg (· + x6 (ix1 c)) (Finset.sum_congr rfl fun k _ => ?_)
  refine congrArg (· * x5 (ix2 k c)) ?_
  refine (truncf_apply (ψ := .bf16) _ bitsLt_bf16_f32 _).trans ?_
  refine (addf_apply _ _ _).trans ?_
  rw [bias_fuse]
  refine congrArg (· + x4 (ix1 k)) ?_
  refine (addf_apply _ _ _).trans ?_
  rw [matmul_fuse, matmul_fuse]
  rfl

/-- A BLOCK OF THE WHOLE ARRAY'S LOGITS. If the two loaded blocks are rows T·6400 … T·6400 + 6399 of two [1600000, 128]
    arrays, then entry y of the stored block is entry i of the logits of those arrays, where i is y moved down by
    T·6400 rows: an edge's logits depend on its own two rows only. -/
theorem block_logits (A0 A1 : FVec Ideal S1600000x128 .bf16) (x0 x1 : FVec Ideal S6400x128 .bf16)
    (x2 x3 : FVec Ideal S128x128 .bf16) (x4 : FVec Ideal S128 .f32) (x5 : FVec Ideal S128x21 .bf16) (x6 : FVec Ideal S21 .f32)
    (T : Nat)
    (h0 : ∀ (z : S6400x128.Idx) (k : S1600000x128.Idx), (k 0).val = T * 6400 + (z 0).val → (k 1).val = (z 1).val → x0 z = A0 k)
    (h1 : ∀ (z : S6400x128.Idx) (k : S1600000x128.Idx), (k 0).val = T * 6400 + (z 0).val → (k 1).val = (z 1).val → x1 z = A1 k)
    (y : S6400x21.Idx) (i : S1600000x21.Idx) (hi0 : (i 0).val = T * 6400 + (y 0).val) (hi1 : (i 1).val = (y 1).val) :
    k0_pay1 (F := Ideal) x0 x1 x2 x3 x4 x5 x6 y = Cert.EdgeLogits.logits (n := 1600000) A0 A1 x2 x3 x4 x5 x6 i := by
  obtain ⟨p, q, rfl⟩ : ∃ (p : Fin 6400) (q : Fin 21), y = ix2 p q := ⟨y 0, y 1, eq_ix2 y⟩
  obtain ⟨e, q', rfl⟩ : ∃ (e : Fin 1600000) (q' : Fin 21), i = ix2 e q' := ⟨i 0, i 1, eq_ix2 i⟩
  have hq : q' = q := Fin.ext hi1
  subst hq
  rw [pay_apply, Cert.EdgeLogits.logits_apply]
  have r0 : Cert.EdgeLogits.row (n := 6400) x0 p = Cert.EdgeLogits.row (n := 1600000) A0 e := funext fun j => h0 (ix2 p j) (ix2 e j) hi0 rfl
  have r1 : Cert.EdgeLogits.row (n := 6400) x1 p = Cert.EdgeLogits.row (n := 1600000) A1 e := funext fun j => h1 (ix2 p j) (ix2 e j) hi0 rfl
  rw [r0, r1]

end Cert.KernelIdeal.BlockValue

end
-- ==== Proof.KernelArray.lean ====
/-
  From the blocks the grid points write to the whole result array.

  The grid has 250 points. Point t stages rows 6400·t … 6400·t + 6399 of the two gathered [1600000, 128] arrays, the
  weights and biases whole (their block index is always zero), and writes back rows 6400·t … 6400·t + 6399 of the
  [1600000, 21] result. What it writes is the logits of its own 6400 edges, which are those rows of the logits of the
  whole arrays (an edge's logits depend on its own rows only); and every row e of the result lies in the block of
  exactly the point e / 6400. So after the run the result array holds `logits` of the arrays the region finds.
-/
import proofs.«418233_j57312043598044_1_alg».proof.Proof.Gen.KernelIdeal.Value
import proofs.«418233_j57312043598044_1_alg».proof.Proof.BlockLogits

noncomputable section

namespace Cert.KernelIdeal.ArrayValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Where each window's block sits at a grid point: the two row windows move with the output's, everything else
    stays at block zero. -/
structure IdxFacts (t : Fin cfg0.N) : Prop where
  w0_0 : win0_0.index t (0 : Fin 2) = win0_7.index t (0 : Fin 2)
  w0_1 : win0_0.index t (1 : Fin 2) = 0
  w1_0 : win0_1.index t (0 : Fin 2) = win0_7.index t (0 : Fin 2)
  w1_1 : win0_1.index t (1 : Fin 2) = 0
  w2_0 : win0_2.index t (0 : Fin 2) = 0
  w2_1 : win0_2.index t (1 : Fin 2) = 0
  w3_0 : win0_3.index t (0 : Fin 2) = 0
  w3_1 : win0_3.index t (1 : Fin 2) = 0
  w4_0 : win0_4.index t (0 : Fin 1) = 0
  w5_0 : win0_5.index t (0 : Fin 2) = 0
  w5_1 : win0_5.index t (1 : Fin 2) = 0
  w6_0 : win0_6.index t (0 : Fin 1) = 0
  w7_0 : win0_7.index t (0 : Fin 2) = t.val
  w7_1 : win0_7.index t (1 : Fin 2) = 0

/-- The printed index maps, decided once over the 250 points. -/
theorem idx_all : ∀ t : Fin cfg0.N, win0_0.index t (0 : Fin 2) = win0_7.index t (0 : Fin 2) ∧ win0_0.index t (1 : Fin 2) = 0
      ∧ win0_1.index t (0 : Fin 2) = win0_7.index t (0 : Fin 2) ∧ win0_1.index t (1 : Fin 2) = 0
      ∧ win0_2.index t (0 : Fin 2) = 0 ∧ win0_2.index t (1 : Fin 2) = 0
      ∧ win0_3.index t (0 : Fin 2) = 0 ∧ win0_3.index t (1 : Fin 2) = 0
      ∧ win0_4.index t (0 : Fin 1) = 0
      ∧ win0_5.index t (0 : Fin 2) = 0 ∧ win0_5.index t (1 : Fin 2) = 0
      ∧ win0_6.index t (0 : Fin 1) = 0
      ∧ win0_7.index t (0 : Fin 2) = t.val ∧ win0_7.index t (1 : Fin 2) = 0 :=
  (by decide +kernel : ∀ t : Fin grid0.N, _)

theorem idx_facts (t : Fin cfg0.N) : IdxFacts t :=
  have h := idx_all t
  ⟨h.1, h.2.1, h.2.2.1, h.2.2.2.1, h.2.2.2.2.1, h.2.2.2.2.2.1, h.2.2.2.2.2.2.1, h.2.2.2.2.2.2.2.1, h.2.2.2.2.2.2.2.2.1,
    h.2.2.2.2.2.2.2.2.2.1, h.2.2.2.2.2.2.2.2.2.2.1, h.2.2.2.2.2.2.2.2.2.2.2.1, h.2.2.2.2.2.2.2.2.2.2.2.2.1,
    h.2.2.2.2.2.2.2.2.2.2.2.2.2⟩

/-! ## The input blocks, read off the arrays the region finds -/

theorem iblk_0 (c : Dev nD) (t : Fin cfg0.N) (z : S6400x128.Idx) (k : S1600000x128.Idx)
    (hk0 : (k 0).val = win0_7.index t (0 : Fin 2) * 6400 + (z 0).val) (hk1 : (k 1).val = (z 1).val) :
    iblk m c 0 t z = V m c main_v5 k := by
  have f := idx_facts t
  unfold iblk
  rw [View.read_apply, cast_eq]
  refine congrArg (V m c main_v5) (funext fun a => Fin.ext ?_)
  refine ((show (((cfg0.win 0).blk t).view.emb z a : Nat) = ((win0_0.rect t).emb z a : Nat) from rfl).trans
    (Pipeline.Window.rect_emb_val win0_0 t z a)).trans ?_
  match a with
  | ⟨0, _⟩ => show win0_0.index t (0 : Fin 2) * 6400 + (z 0).val = (k 0).val; have := f.w0_0; omega
  | ⟨1, _⟩ => show win0_0.index t (1 : Fin 2) * 128 + (z 1).val = (k 1).val; have := f.w0_1; omega

theorem iblk_1 (c : Dev nD) (t : Fin cfg0.N) (z : S6400x128.Idx) (k : S1600000x128.Idx)
    (hk0 : (k 0).val = win0_7.index t (0 : Fin 2) * 6400 + (z 0).val) (hk1 : (k 1).val = (z 1).val) :
    iblk m c 1 t z = V m c main_v7 k := by
  have f := idx_facts t
  unfold iblk
  rw [View.read_apply, cast_eq]
  refine congrArg (V m c main_v7) (funext fun a => Fin.ext ?_)
  refine ((show (((cfg0.win 1).blk t).view.emb z a : Nat) = ((win0_1.rect t).emb z a : Nat) from rfl).trans
    (Pipeline.Window.rect_emb_val win0_1 t z a)).trans ?_
  match a with
  | ⟨0, _⟩ => show win0_1.index t (0 : Fin 2) * 6400 + (z 0).val = (k 0).val; have := f.w1_0; omega
  | ⟨1, _⟩ => show win0_1.index t (1 : Fin 2) * 128 + (z 1).val = (k 1).val; have := f.w1_1; omega

theorem iblk_2 (c : Dev nD) (t : Fin cfg0.N) : iblk m c 2 t = V m c main_v8 := by
  have e := idx_facts t
  funext j
  show V m c main_v8 (((cfg0.win 2).blk t).view.emb j) = V m c main_v8 j
  refine congrArg _ (funext fun a => Fin.ext ?_)
  match a with
  | ⟨0, _⟩ => show win0_2.index t (0 : Fin 2) * 128 + 1 * (j 0).val = (j 0).val; have := e.w2_0; omega
  | ⟨1, _⟩ => show win0_2.index t (1 : Fin 2) * 128 + 1 * (j 1).val = (j 1).val; have := e.w2_1; omega

theorem iblk_3 (c : Dev nD) (t : Fin cfg0.N) : iblk m c 3 t = V m c main_v9 := by
  have e := idx_facts t
  funext j
  show V m c main_v9 (((cfg0.win 3).blk t).view.emb j) = V m c main_v9 j
  refine congrArg _ (funext fun a => Fin.ext ?_)
  match a with
  | ⟨0, _⟩ => show win0_3.index t (0 : Fin 2) * 128 + 1 * (j 0).val = (j 0).val; have := e.w3_0; omega
  | ⟨1, _⟩ => show win0_3.index t (1 : Fin 2) * 128 + 1 * (j 1).val = (j 1).val; have := e.w3_1; omega

theorem iblk_4 (c : Dev nD) (t : Fin cfg0.N) : iblk m c 4 t = V m c main_arg4 := by
  have e := idx_facts t
  funext j
  show V m c main_arg4 (((cfg0.win 4).blk t).view.emb j) = V m c main_arg4 j
  refine congrArg _ (funext fun a => Fin.ext ?_)
  match a with
  | ⟨0, _⟩ => show win0_4.index t (0 : Fin 1) * 128 + 1 * (j 0).val = (j 0).val; have := e.w4_0; omega

theorem iblk_5 (c : Dev nD) (t : Fin cfg0.N) : iblk m c 5 t = V m c main_v10 := by
  have e := idx_facts t
  funext j
  show V m c main_v10 (((cfg0.win 5).blk t).view.emb j) = V m c main_v10 j
  refine congrArg _ (funext fun a => Fin.ext ?_)
  match a with
  | ⟨0, _⟩ => show win0_5.index t (0 : Fin 2) * 128 + 1 * (j 0).val = (j 0).val; have := e.w5_0; omega
  | ⟨1, _⟩ => show win0_5.index t (1 : Fin 2) * 21 + 1 * (j 1).val = (j 1).val; have := e.w5_1; omega

theorem iblk_6 (c : Dev nD) (t : Fin cfg0.N) : iblk m c 6 t = V m c main_arg6 := by
  have e := idx_facts t
  funext j
  show V m c main_arg6 (((cfg0.win 6).blk t).view.emb j) = V m c main_arg6 j
  refine congrArg _ (funext fun a => Fin.ext ?_)
  match a with
  | ⟨0, _⟩ => show win0_6.index t (0 : Fin 1) * 21 + 1 * (j 0).val = (j 0).val; have := e.w6_0; omega

/-! ## The result array -/

/-- The logits of all 1600000 edges, from the arrays the region finds. -/
abbrev found (c : Dev nD) : S1600000x21.Idx → EReal :=
  Cert.EdgeLogits.logits (n := 1600000) (V m c main_v5) (V m c main_v7) (V m c main_v8) (V m c main_v9) (V m c main_arg4)
    (V m c main_v10) (V m c main_arg6)

/-- WHAT POINT t WRITES BACK is block t of `found`. -/
theorem flushed_eq (c : Dev nD) (t : Fin cfg0.N) :
    (dats m 0 c).flushed 7 t = ((cfg0.win 7).blk t).view.read (Elt Ideal) (found m c) := by
  rw [Cert.KernelIdeal.Value.flushed7]
  unfold out0_7
  rw [View.canon_unit_zero hz2]
  simp only [View.ld_unit_zero (S := S6400x128) hz2, View.ld_unit_zero (S := S128x128) hz2, View.ld_unit_zero (S := S128) hz1,
    View.ld_unit_zero (S := S128x21) hz2, View.ld_unit_zero (S := S21) hz1]
  rw [iblk_2 m c t, iblk_3 m c t, iblk_4 m c t, iblk_5 m c t, iblk_6 m c t]
  funext y
  rw [View.read_apply, cast_eq]
  refine Cert.KernelIdeal.BlockValue.block_logits (V m c main_v5) (V m c main_v7) (iblk m c 0 t) (iblk m c 1 t) (V m c main_v8)
    (V m c main_v9) (V m c main_arg4) (V m c main_v10) (V m c main_arg6) (win0_7.index t (0 : Fin 2))
    (fun z k hk0 hk1 => iblk_0 m c t z k hk0 hk1) (fun z k hk0 hk1 => iblk_1 m c t z k hk0 hk1)
    ((cfg0.win 7).xinj (grid0.coords t) y) (((cfg0.win 7).blk t).view.emb y) ?_ ?_
  · exact (show (((cfg0.win 7).blk t).view.emb y (0 : Fin 2) : Nat) = ((win0_7.rect t).emb y (0 : Fin 2) : Nat) from rfl).trans
      (Pipeline.Window.rect_emb_val win0_7 t y (0 : Fin 2))
  · refine ((show (((cfg0.win 7).blk t).view.emb y (1 : Fin 2) : Nat) = ((win0_7.rect t).emb y (1 : Fin 2) : Nat) from rfl).trans
      (Pipeline.Window.rect_emb_val win0_7 t y (1 : Fin 2))).trans ?_
    show win0_7.index t (1 : Fin 2) * 21 + (y 1).val = (y 1).val
    have := (idx_facts t).w7_1
    omega

/-- An index of the result is in point t's block iff each coordinate is in the block's range on its axis. -/
theorem mem_blk (t : Fin cfg0.N) (i : S1600000x21.Idx) :
    i ∈ ((cfg0.win 7).blk t).view.set ↔ ∀ a : Fin 2, win0_7.index t a * S6400x21.size a ≤ (i a).val ∧ (i a).val < win0_7.index t a * S6400x21.size a + S6400x21.size a := by
  show i ∈ ((View.whole main_v11).slice (win0_7.rect t)).set ↔ _
  rw [View.set_slice_whole, Rect.mem_set_unit]
  exact Iff.rfl

/-- Row e of the result lies in the block of point e / 6400. -/
theorem cover (i : S1600000x21.Idx) : ∃ t : Fin cfg0.N, (cfg0.win 7).flush t = true ∧ i ∈ ((cfg0.win 7).blk t).view.set := by
  have hi0 : (i 0).val < 1600000 := (i 0).isLt
  have hi1 : (i 1).val < 21 := (i 1).isLt
  have hN : cfg0.N = 250 := N_0
  have ht : (i 0).val / 6400 < cfg0.N := by rw [hN]; omega
  refine ⟨⟨(i 0).val / 6400, ht⟩, flush0_7 _, ?_⟩
  rw [mem_blk]
  have e0 : win0_7.index ⟨(i 0).val / 6400, ht⟩ (0 : Fin 2) = (i 0).val / 6400 := (idx_facts _).w7_0
  have e1 := (idx_facts ⟨(i 0).val / 6400, ht⟩).w7_1
  intro a
  match a with
  | ⟨0, _⟩ =>
    show win0_7.index ⟨(i 0).val / 6400, ht⟩ (0 : Fin 2) * 6400 ≤ (i 0).val ∧ (i 0).val < win0_7.index ⟨(i 0).val / 6400, ht⟩ (0 : Fin 2) * 6400 + 6400
    omega
  | ⟨1, _⟩ =>
    show win0_7.index ⟨(i 0).val / 6400, ht⟩ (1 : Fin 2) * 21 ≤ (i 1).val ∧ (i 1).val < win0_7.index ⟨(i 0).val / 6400, ht⟩ (1 : Fin 2) * 21 + 21
    omega

/-- THE RESULT ARRAY after the run is `found`. -/
theorem final (c : Dev nD) : (dats m 0 c).arrAt 7 cfg0.N = found m c :=
  (dats m 0 c).arrAt_eq_of_cover 7 (found m c) (fun t _ => flushed_eq m c t) cover

/-- The kernel's run, its result array named as `found`, the arguments unchanged. -/
theorem run : θ_run defs (onTc (τ := τ) (main (F := Ideal))) ⟨m, fun _ => 0, ρ⟩ fun r => ∀ c : Dev nD,
      r.2.mem ((c : Thread nD τ).loc main_v11) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.ArrayValue

end
-- ==== Proof.RefLogits.lean ====
/-
  The reference computes `logits` of the rows it gathers.

  Read one operation at a time, entry (e, c) of the reference's result is
      Σ_k (Σ_j src[e, j]·Wsrc[j, k] + Σ_j dst[e, j]·Wdst[j, k] + b[k]) · Wcls[k, c] + bcls[c],
  where `src` and `dst` are the two gathered [1600000, 128] arrays: each `dot_general` contracts one axis and is a
  plain sum at the ideal instance, each bias is a row broadcast down the edges. That is `EdgeLogits.logits` of the
  gathered arrays, term for term; the gathers themselves are not opened.
-/
import proofs.«418233_j57312043598044_1_alg».proof.Proof.Gen.ReferenceIdeal.Read
import proofs.«418233_j57312043598044_1_alg».proof.Proof.Logits

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The classifier's contraction at (e, c) reads the fused features of edge e and column c of Wcls. -/
theorem lidx_cls (e : Fin 1600000) (c : Fin 21) (k : Fin 128) : lidx_main_v24 (ix2 e c) k = ix2 e k :=
  funext fun a => Fin.ext (by match a with | ⟨0, _⟩ => rfl | ⟨1, _⟩ => rfl)
theorem ridx_cls (e : Fin 1600000) (c : Fin 21) (k : Fin 128) : ridx_main_v24 (ix2 e c) k = ix2 k c :=
  funext fun a => Fin.ext (by match a with | ⟨0, _⟩ => rfl | ⟨1, _⟩ => rfl)
/-- The two fusing contractions at (e, k) read row e of the gathered array and column k of the weight. -/
theorem lidx_src (e : Fin 1600000) (k j : Fin 128) : lidx_main_v18 (ix2 e k) j = ix2 e j :=
  funext fun a => Fin.ext (by match a with | ⟨0, _⟩ => rfl | ⟨1, _⟩ => rfl)
theorem ridx_src (e : Fin 1600000) (k j : Fin 128) : ridx_main_v18 (ix2 e k) j = ix2 j k :=
  funext fun a => Fin.ext (by match a with | ⟨0, _⟩ => rfl | ⟨1, _⟩ => rfl)
theorem lidx_dst (e : Fin 1600000) (k j : Fin 128) : lidx_main_v19 (ix2 e k) j = ix2 e j :=
  funext fun a => Fin.ext (by match a with | ⟨0, _⟩ => rfl | ⟨1, _⟩ => rfl)
theorem ridx_dst (e : Fin 1600000) (k j : Fin 128) : ridx_main_v19 (ix2 e k) j = ix2 j k :=
  funext fun a => Fin.ext (by match a with | ⟨0, _⟩ => rfl | ⟨1, _⟩ => rfl)
/-- The biases, broadcast down the edges, are read at their column. -/
theorem bidx_fuse (e : Fin 1600000) (k : Fin 128) : idx_main_v21 (idx_main_v22 (ix2 e k)) = ix1 k :=
  funext fun a => Fin.ext (by match a with | ⟨0, _⟩ => rfl)
theorem bidx_cls (e : Fin 1600000) (c : Fin 21) : idx_main_v25 (idx_main_v26 (ix2 e c)) = ix1 c :=
  funext fun a => Fin.ext (by match a with | ⟨0, _⟩ => rfl)

/-- The fused feature (e, k) of the reference. -/
theorem fused_apply (x0 : (⟨S50000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (e : Fin 1600000) (k : Fin 128) :
    val_main_v23 (F := Ideal) x0 x1 x2 x3 x4 (ix2 e k)
      = Cert.EdgeLogits.fused (Cert.EdgeLogits.row (val_main_v8 (F := Ideal) x0 x1) e)
          (Cert.EdgeLogits.row (val_main_v17 (F := Ideal) x0 x1) e) x2 x3 x4 k := by
  rw [val_main_v23_apply, val_main_v20_apply, val_main_v18_apply, val_main_v19_apply, val_main_v22_apply, val_main_v21_apply,
    bidx_fuse]
  simp only [lidx_src, ridx_src, lidx_dst, ridx_dst]
  rfl

/-- THE REFERENCE'S RESULT is `logits` of its two gathered arrays and the weight arrays. -/
theorem result_eq (x0 : (⟨S50000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 : (⟨S128x21, .f32⟩ : BufTy).Contents (Elt Ideal)) (x6 : (⟨S21, .f32⟩ : BufTy).Contents (Elt Ideal)) :
    val_main_v27 (F := Ideal) x0 x1 x2 x3 x4 x5 x6
      = Cert.EdgeLogits.logits (val_main_v8 (F := Ideal) x0 x1) (val_main_v17 (F := Ideal) x0 x1) x2 x3 x4 x5 x6 := by
  funext i
  obtain ⟨e, c, rfl⟩ : ∃ (e : Fin 1600000) (c : Fin 21), i = ix2 e c := ⟨i 0, i 1, eq_ix2 i⟩
  rw [Cert.EdgeLogits.logits_apply, val_main_v27_apply, val_main_v24_apply, val_main_v26_apply, val_main_v25_apply, bidx_cls]
  simp only [lidx_cls, ridx_cls, fused_apply]
  rfl

end Cert.ReferenceIdeal.RefValue

end
-- ==== Proof.NodeIndex.lean ====
/-
  Node indices as 32-bit words.

  A row of the 50000-row table is addressed NumPy's way: an index `w` with -50000 ≤ w < 50000, a negative one
  counting from the end, so the row read is `w + 50000` when `w < 0` and `w` otherwise. `wrap_in_table`: for such
  a word that wrapped index lies in [0, 49999], which is the test a filling lookup makes before it keeps the row it
  read. `reduce_andi_ones`: an and-reduction of an array of ones, from one, is one — the converse of reading a
  `jnp.all` back.
-/
import Idealize.ShloMosaic.Lib.Affine
import Idealize.ShloMosaic.Lib.ReduceAll
import Idealize.ShloMosaic.Lib.ValueIdx

namespace Cert.NodeIndex

open Idealize.ShloMosaic

theorem toInt_neg_n : (4294917296#32 : BitVec 32).toInt = -50000 := by decide
theorem toInt_n : (50000#32 : BitVec 32).toInt = 50000 := by decide
theorem toInt_zero : (0#32 : BitVec 32).toInt = 0 := by decide
theorem toInt_last : (49999#32 : BitVec 32).toInt = 49999 := by decide

/-- Adding 50000 to a word in [-50000, 0) does not wrap. -/
theorem toInt_add_n (w : BitVec 32) (hlo : -50000 ≤ w.toInt) (hneg : w.toInt < 0) :
    (IntOp.addi w 50000#32).toInt = w.toInt + 50000 := by
  show (w + 50000#32).toInt = _
  rw [BitVec.toInt_add, toInt_n]
  have h32 : ((2 : Nat) ^ 32 : Int) = 4294967296 := by norm_num
  rw [Int.bmod_def]
  omega

/-- The wrapped index of a word in [-50000, 50000) is a row of the table. -/
theorem wrap_in_table (w : BitVec 32) (hlo : IntOp.cmpi .sge w 4294917296#32 = 1#1)
    (hhi : IntOp.cmpi .slt w 50000#32 = 1#1) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  rw [IntOp.cmpi_sge, toInt_neg_n] at hlo
  rw [IntOp.cmpi_slt, toInt_n] at hhi
  by_cases hneg : w.toInt < 0
  · have hc : IntOp.cmpi .slt w 0#32 = 1#1 := IntOp.cmpi_slt.2 (by rw [toInt_zero]; exact hneg)
    rw [hc, ValueIdx.select_one, IntOp.andi_eq_one, IntOp.cmpi_sge, IntOp.cmpi_sle, toInt_zero, toInt_last,
      toInt_add_n w hlo hneg]
    omega
  · have hc : IntOp.cmpi .slt w 0#32 = 0#1 :=
      ValueIdx.eq_zero_of_ne_one fun h => hneg (by have := IntOp.cmpi_slt.1 h; rwa [toInt_zero] at this)
    rw [hc, ValueIdx.select_zero, IntOp.andi_eq_one, IntOp.cmpi_sge, IntOp.cmpi_sle, toInt_zero, toInt_last]
    omega

/-- A left fold by `and` over ones, from one, is one. -/
theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi (1#1 : BitVec 1) 1#1 = 1#1 from by decide]
    exact foldl_andi_ones g hg l

/-- An and-reduction of an array of ones, from one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

end Cert.NodeIndex
-- ==== Proof.Staged.lean ====
/-
  The arrays the kernel region finds, and what the index range does for them.

  Before the region the program looks up, for each end of every edge, the row of the table at the edge's node index.
  The lookup is a FILLING one: the index w is first wrapped (w + 50000 when w < 0), the row at the wrapped index is
  gathered, and the row is kept only if the wrapped index lies in [0, 49999]; otherwise the row is replaced by a
  fill value. The weights are passed through a change of float format, which at the ideal instance is the identity.

  When every node index w satisfies -50000 ≤ w < 50000 its wrapped index is a row of the table, so the test passes
  on every edge and the filling lookup is the plain gather at the wrapped indices — the same gather, at the same
  indices, that plain indexing performs.
-/
import proofs.«418233_j57312043598044_1_alg».proof.Defs
import proofs.«418233_j57312043598044_1_alg».proof.Proof.Gen.KernelIdeal.Frame
import proofs.«418233_j57312043598044_1_alg».proof.Proof.NodeIndex
import Idealize.ShloMosaic.Lib.StableHlo.Run
import Idealize.ShloMosaic.Lib.ReduceAll
import Idealize.ShloMosaic.Lib.Pipeline.Value

noncomputable section

namespace Cert.KernelIdeal.Staged

open Cert.KernelIdeal Cert.KernelIdeal.Gen
open Idealize.ShloMosaic Idealize.ShloMosaic.TcCoe Idealize.SL.Sem Idealize.ShloMosaic.StableHlo

/-! ## The lookup, piece by piece -/

/-- The node indices of the edges' sources (row 0 of the [2, 1600000] index array) and destinations (row 1). -/
def sources (x1 : IVec S2x1600000 32) : IVec S1600000 32 :=
  shapeCast S1600000 (extractStridedSlice S1x1600000 ![0, 0] x1 slices_S2x1600000_S1x1600000_0_0) shapeCasts_S1x1600000_S1600000
def destinations (x1 : IVec S2x1600000 32) : IVec S1600000 32 :=
  shapeCast S1600000 (extractStridedSlice S1x1600000 ![1, 0] x1 slices_S2x1600000_S1x1600000_1_0) shapeCasts_S1x1600000_S1600000

/-- The wrapped indices, as the [1600000, 1] column of start indices the gather takes. -/
def wrapped (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- The test "the wrapped index is a row of the table", repeated along each row. -/
def inTable (w : IVec S1600000x1 32) : IVec S1600000x128 1 :=
  broadcastInDim S1600000x128 ![0] bcast_S1600000_S1600000x128_0
    (Host.reduce IntOp.andi
      (andi (cmpi .sge w (broadcastInDim S1600000x1 ![] bcast_S_S1600000x1 (constantI S_ 32 0#32)))
        (cmpi .sle w (broadcastInDim S1600000x1 ![0, 1] bcast_S1x1_S1600000x1_0_1
          (broadcastInDim S1x1 ![1] bcast_S1_S1x1_1 (constantI S1 32 49999#32)))))
      (constantI S_ 1 1#1) reducesTo_S1600000x1_S1600000_d1 h_S_)

variable {F : FTy → Type} [FloatOps F]

/-- The rows of the table at the wrapped indices. -/
def rows (x0 : FVec F S50000x128 .f32) (v : IVec S1600000 32) : FVec F S1600000x128 .f32 :=
  Host.gather gather_S50000x128_S1600000x1_S1600000x128_1_0_n_n_0_1_1128 x0 (wrapped v)

/-- The filling lookup: the gathered row where the test passes, the fill value elsewhere. -/
def filled (x0 : FVec F S50000x128 .f32) (v : IVec S1600000 32) : FVec F S1600000x128 .f32 :=
  select (inTable (wrapped v)) (rows x0 v)
    (broadcastInDim S1600000x128 ![] bcast_S_S1600000x128 (constant S_ .f32 0x7FC00000#32))

/-! ## In range, the filling lookup is the gather -/

/-- A node index in [-50000, 50000), as the two comparisons a range check makes of the word. -/
def InRange (w : BitVec 32) : Prop := IntOp.cmpi .sge w 4294917296#32 = 1#1 ∧ IntOp.cmpi .slt w 50000#32 = 1#1

/-- With every index in range the test passes everywhere. -/
theorem inTable_ones (v : IVec S1600000 32) (hv : ∀ k, InRange (v k)) (i : S1600000x128.Idx) : inTable (wrapped v) i = 1#1 := by
  have hw : ∀ i' : S1600000x1.Idx,
      (andi (cmpi .sge (wrapped v) (broadcastInDim S1600000x1 ![] bcast_S_S1600000x1 (constantI S_ 32 0#32)))
        (cmpi .sle (wrapped v) (broadcastInDim S1600000x1 ![0, 1] bcast_S1x1_S1600000x1_0_1
          (broadcastInDim S1x1 ![1] bcast_S1_S1x1_1 (constantI S1 32 49999#32))))) i' = 1#1 := fun i' => by
    obtain ⟨k, hk⟩ : ∃ k, wrapped v i' = Scalar.select (IntOp.cmpi .slt (v k) 0#32) (IntOp.addi (v k) 50000#32) (v k) := ⟨_, rfl⟩
    show IntOp.andi (IntOp.cmpi .sge (wrapped v i') 0#32) (IntOp.cmpi .sle (wrapped v i') 49999#32) = 1#1
    rw [hk]
    exact Cert.NodeIndex.wrap_in_table (v k) (hv k).1 (hv k).2
  unfold inTable
  refine (broadcastInDim_apply _ bcast_S1600000_S1600000x128_0 _ i (ValueIdx.ix1 ⟨(i 0).val, (i 0).isLt⟩) (fun a => match a with
    | ⟨0, _⟩ => by show (i 0).val = if (1600000 : Nat) = 1 then 0 else (i 0).val; rw [if_neg (by decide)])).trans ?_
  exact Cert.NodeIndex.reduce_andi_ones _ _ reducesTo_S1600000x1_S1600000_d1 h_S_ hw (fun _ => rfl) _

/-- So the filling lookup keeps every gathered row. -/
theorem filled_eq_rows (x0 : FVec F S50000x128 .f32) (v : IVec S1600000 32) (hv : ∀ k, InRange (v k)) :
    filled x0 v = rows x0 v := by
  funext i
  unfold filled
  rw [ValueIdx.select_apply, inTable_ones v hv i, ValueIdx.select_one]

/-! ## The precondition gives the range -/

/-- The precondition's two `jnp.all`s over the index array, read back at an entry. -/
theorem index_in_range [hP : Cert.Pre_finite_inputs.Facts] (m : (ℓ : Loc nD τ sig) → Buf (Elt Ideal) ℓ)
    (h : Cert.Pre_KernelIdeal m) (c : Dev nD) (i : S2x1600000.Idx) : InRange (m ((c : Thread nD τ).loc main_arg1) i) := by
  have e := congrFun (h c) ValueIdx.ix0
  unfold Cert.Pre_finite_inputs.fn Cert.Pre_finite_inputs.fn_part1 Cert.Pre_finite_inputs.fn_part2 at e
  dsimp only at e
  obtain ⟨e1, e35⟩ := IntOp.andi_eq_one.1 e
  obtain ⟨-, e31⟩ := IntOp.andi_eq_one.1 e1
  haveI : Subsingleton Cert.Pre_finite_inputs.S_.Idx := ⟨fun a b => funext fun d => d.elim0⟩
  exact ⟨Host.reduce_andi_all _ _ _ _ _ e31 i, Host.reduce_andi_all _ _ _ _ _ e35 i⟩

/-! ## The arrays the region finds -/

section Found

variable (m : (ℓ : Loc nD τ sig) → Buf (Elt F) ℓ)

-- The and-reduction and the gather are compared argument by argument below, never opened: opened, the reduction is a
-- fold over all 1600000 indices.
attribute [local irreducible] Host.reduce Host.gather

/-! ### The sources' lookup, one buffer from the buffers before it -/

set_option maxHeartbeats 2000000 in
theorem wrapped_0 (c : Dev nD) : (V m c main_call0_v5 : IVec S1600000x1 32) = wrapped (sources (m ((c : Thread nD τ).loc main_arg1))) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem ge_0 (c : Dev nD) : (V m c main_call0_v7 : IVec S1600000x1 1) = cmpi .sge (V m c main_call0_v5) (broadcastInDim S1600000x1 ![] bcast_S_S1600000x1 (constantI S_ 32 0#32)) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem le_0 (c : Dev nD) : (V m c main_call0_v10 : IVec S1600000x1 1) = cmpi .sle (V m c main_call0_v5) (broadcastInDim S1600000x1 ![0, 1] bcast_S1x1_S1600000x1_0_1 (broadcastInDim S1x1 ![1] bcast_S1_S1x1_1 (constantI S1 32 49999#32))) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem all_0 (c : Dev nD) : (V m c main_call0_v12 : IVec S1600000 1)
    = Host.reduce IntOp.andi (andi (V m c main_call0_v7) (V m c main_call0_v10)) (constantI S_ 1 1#1) reducesTo_S1600000x1_S1600000_d1 h_S_ := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem test_0 (c : Dev nD) : (V m c main_call0_v14 : IVec S1600000x128 1)
    = broadcastInDim S1600000x128 ![0] bcast_S1600000_S1600000x128_0 (V m c main_call0_v12) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem gathered_0 (c : Dev nD) : (V m c main_call0_v13 : FVec F S1600000x128 .f32) = Host.gather gather_S50000x128_S1600000x1_S1600000x128_1_0_n_n_0_1_1128 (m ((c : Thread nD τ).loc main_arg0)) (V m c main_call0_v5) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem looked_up_0 (c : Dev nD) : (V m c main_v4 : FVec F S1600000x128 .f32) = select (V m c main_call0_v14) (V m c main_call0_v13) (broadcastInDim S1600000x128 ![] bcast_S_S1600000x128 (constant S_ .f32 0x7FC00000#32)) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem staged_0 (c : Dev nD) : (V m c main_v5 : FVec F S1600000x128 .bf16) = truncf .bf16 (V m c main_v4) bitsLt_bf16_f32 := by
  dsimp only [V]
  simp only [hostOps0, hostOps0_1, hostOps0_2, hostOps0_3, hostOps0_4, List.flatten_cons, List.flatten_nil, List.append_nil,
    List.cons_append, List.nil_append]
  after_results_simp <;> rfl

/-- Put together: the source rows the region finds are the filling lookup at the sources' indices. -/
theorem found_0 (c : Dev nD) : (V m c main_v5 : FVec F S1600000x128 .bf16)
    = truncf .bf16 (filled (m ((c : Thread nD τ).loc main_arg0)) (sources (m ((c : Thread nD τ).loc main_arg1)))) bitsLt_bf16_f32 := by
  rw [staged_0, looked_up_0, test_0, all_0, ge_0, le_0, gathered_0, wrapped_0]
  rfl

/-! ### The destinations' lookup, one buffer from the buffers before it -/

set_option maxHeartbeats 2000000 in
theorem wrapped_1 (c : Dev nD) : (V m c main_call1_v5 : IVec S1600000x1 32) = wrapped (destinations (m ((c : Thread nD τ).loc main_arg1))) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem ge_1 (c : Dev nD) : (V m c main_call1_v7 : IVec S1600000x1 1) = cmpi .sge (V m c main_call1_v5) (broadcastInDim S1600000x1 ![] bcast_S_S1600000x1 (constantI S_ 32 0#32)) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem le_1 (c : Dev nD) : (V m c main_call1_v10 : IVec S1600000x1 1) = cmpi .sle (V m c main_call1_v5) (broadcastInDim S1600000x1 ![0, 1] bcast_S1x1_S1600000x1_0_1 (broadcastInDim S1x1 ![1] bcast_S1_S1x1_1 (constantI S1 32 49999#32))) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem all_1 (c : Dev nD) : (V m c main_call1_v12 : IVec S1600000 1)
    = Host.reduce IntOp.andi (andi (V m c main_call1_v7) (V m c main_call1_v10)) (constantI S_ 1 1#1) reducesTo_S1600000x1_S1600000_d1 h_S_ := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem test_1 (c : Dev nD) : (V m c main_call1_v14 : IVec S1600000x128 1)
    = broadcastInDim S1600000x128 ![0] bcast_S1600000_S1600000x128_0 (V m c main_call1_v12) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem gathered_1 (c : Dev nD) : (V m c main_call1_v13 : FVec F S1600000x128 .f32) = Host.gather gather_S50000x128_S1600000x1_S1600000x128_1_0_n_n_0_1_1128 (m ((c : Thread nD τ).loc main_arg0)) (V m c main_call1_v5) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem looked_up_1 (c : Dev nD) : (V m c main_v6 : FVec F S1600000x128 .f32) = select (V m c main_call1_v14) (V m c main_call1_v13) (broadcastInDim S1600000x128 ![] bcast_S_S1600000x128 (constant S_ .f32 0x7FC00000#32)) := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem staged_1 (c : Dev nD) : (V m c main_v7 : FVec F S1600000x128 .bf16) = truncf .bf16 (V m c main_v6) bitsLt_bf16_f32 := by
  dsimp only [V]
  simp only [hostOps0, hostOps0_1, hostOps0_2, hostOps0_3, hostOps0_4, List.flatten_cons, List.flatten_nil, List.append_nil,
    List.cons_append, List.nil_append]
  after_results_simp <;> rfl

/-- Put together: the destination rows the region finds are the filling lookup at the destinations' indices. -/
theorem found_1 (c : Dev nD) : (V m c main_v7 : FVec F S1600000x128 .bf16)
    = truncf .bf16 (filled (m ((c : Thread nD τ).loc main_arg0)) (destinations (m ((c : Thread nD τ).loc main_arg1)))) bitsLt_bf16_f32 := by
  rw [staged_1, looked_up_1, test_1, all_1, ge_1, le_1, gathered_1, wrapped_1]
  rfl

/-! ### The weights: a change of float format each -/

set_option maxHeartbeats 2000000 in
theorem V_wsrc (c : Dev nD) : (V m c main_v8 : FVec F S128x128 .bf16) = truncf .bf16 (m ((c : Thread nD τ).loc main_arg2)) bitsLt_bf16_f32 := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem V_wdst (c : Dev nD) : (V m c main_v9 : FVec F S128x128 .bf16) = truncf .bf16 (m ((c : Thread nD τ).loc main_arg3)) bitsLt_bf16_f32 := by
  dsimp only [V]
  simp only [hostOps0, hostOps0_1, hostOps0_2, hostOps0_3, hostOps0_4, List.flatten_cons, List.flatten_nil, List.append_nil,
    List.cons_append, List.nil_append]
  after_results_simp <;> rfl

set_option maxHeartbeats 2000000 in
theorem V_wcls (c : Dev nD) : (V m c main_v10 : FVec F S128x21 .bf16) = truncf .bf16 (m ((c : Thread nD τ).loc main_arg5)) bitsLt_bf16_f32 := by
  dsimp only [V]
  simp only [hostOps0, hostOps0_1, hostOps0_2, hostOps0_3, hostOps0_4, List.flatten_cons, List.flatten_nil, List.append_nil,
    List.cons_append, List.nil_append]
  after_results_simp <;> rfl

end Found

/-- At the ideal instance a change of float format is the identity. -/
theorem truncf_ideal {s : Shape} (a : FVec Ideal s .f32) : truncf .bf16 a bitsLt_bf16_f32 = a := rfl

end Cert.KernelIdeal.Staged

end
-- ==== Proof.lean ====
/-
  Edge classification on a graph: a Pallas kernel against its jnp reference, equal over the extended reals.

  Both programs look up, for every one of 1600000 edges, the table rows of the edge's two end nodes, fuse them by two
  dense layers and a bias, and classify the fused features by a third dense layer and a bias:
      logits[e, c] = Σ_k (Σ_j src[e, j]·Wsrc[j, k] + Σ_j dst[e, j]·Wdst[j, k] + b[k]) · Wcls[k, c] + bcls[c].
  The kernel computes this 6400 edges at a time with bf16 operands (format changes are the identity here) and each
  product into a zero accumulator; the reference computes it over whole arrays. Neither side reorders a sum, so the
  two are the same function of the looked-up rows with no law of arithmetic needed, and finiteness is never used.

  The one difference is the lookup. The kernel's is a filling one, which replaces a row by a fill value when the
  node index, wrapped NumPy's way, is not a row of the table; the reference's plain indexing clamps instead. For
  node indices in [-50000, 50000), which the precondition states, the wrapped index is always a row of the table, the
  fill never happens, and both lookups are the same gather at the same wrapped indices.

  The modules: Logits (the function), RefLogits (the reference computes it), BlockLogits (the kernel body computes a
  block of it), KernelArray (the blocks make up the array), NodeIndex and Staged (the lookup under the index range).
-/
import proofs.«418233_j57312043598044_1_alg».proof.Defs
import proofs.«418233_j57312043598044_1_alg».proof.Proof.Gen.Kernel
import proofs.«418233_j57312043598044_1_alg».proof.Proof.Gen.Kernel.Frame
import proofs.«418233_j57312043598044_1_alg».proof.Proof.Gen.KernelIdeal
import proofs.«418233_j57312043598044_1_alg».proof.Proof.Gen.KernelIdeal.Frame
import proofs.«418233_j57312043598044_1_alg».proof.Proof.Gen.KernelIdeal.Value
import proofs.«418233_j57312043598044_1_alg».proof.Proof.Gen.ReferenceIdeal
import proofs.«418233_j57312043598044_1_alg».proof.Proof.Gen.ReferenceIdeal.Run
import proofs.«418233_j57312043598044_1_alg».proof.Proof.Gen.ReferenceIdeal.Read
import proofs.«418233_j57312043598044_1_alg».proof.Proof.Gen.Pre_finite_inputs
import proofs.«418233_j57312043598044_1_alg».proof.Proof.KernelArray
import proofs.«418233_j57312043598044_1_alg».proof.Proof.RefLogits
import proofs.«418233_j57312043598044_1_alg».proof.Proof.Staged

noncomputable section

namespace Cert.Proof

open Idealize.ShloMosaic Idealize.ShloMosaic.TcCoe Idealize.SL.Sem

/-! ## The two programs gather the same rows -/

/-- Plain indexing's gather at the wrapped indices is the gather the filling lookup makes: the same operation on
    the same index column, written once in each program's vocabulary. -/
theorem ref_rows_src (x0 : FVec Ideal Cert.KernelIdeal.S50000x128 .f32) (x1 : IVec Cert.KernelIdeal.S2x1600000 32) :
    Cert.ReferenceIdeal.Read.val_main_v8 (F := Ideal) x0 x1
      = Cert.KernelIdeal.Staged.rows (F := Ideal) x0 (Cert.KernelIdeal.Staged.sources x1) := rfl

theorem ref_rows_dst (x0 : FVec Ideal Cert.KernelIdeal.S50000x128 .f32) (x1 : IVec Cert.KernelIdeal.S2x1600000 32) :
    Cert.ReferenceIdeal.Read.val_main_v17 (F := Ideal) x0 x1
      = Cert.KernelIdeal.Staged.rows (F := Ideal) x0 (Cert.KernelIdeal.Staged.destinations x1) := rfl

/-! ## The kernel's result in terms of its arguments -/

/-- Under the precondition the kernel's result array is the logits of the rows gathered at the wrapped indices. -/
theorem kernel_value [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.ArrayValue.found m c
      = Cert.EdgeLogits.logits (n := 1600000)
          (Cert.KernelIdeal.Staged.rows (F := Ideal) (m ((c : Thread Cert.KernelIdeal.nD Cert.KernelIdeal.τ).loc Cert.KernelIdeal.main_arg0)) (Cert.KernelIdeal.Staged.sources (m ((c : Thread Cert.KernelIdeal.nD Cert.KernelIdeal.τ).loc Cert.KernelIdeal.main_arg1))))
          (Cert.KernelIdeal.Staged.rows (F := Ideal) (m ((c : Thread Cert.KernelIdeal.nD Cert.KernelIdeal.τ).loc Cert.KernelIdeal.main_arg0)) (Cert.KernelIdeal.Staged.destinations (m ((c : Thread Cert.KernelIdeal.nD Cert.KernelIdeal.τ).loc Cert.KernelIdeal.main_arg1))))
          (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  have hr := Cert.KernelIdeal.Staged.index_in_range m h c
  show Cert.EdgeLogits.logits (n := 1600000) (Cert.KernelIdeal.Gen.V m c Cert.KernelIdeal.main_v5) (Cert.KernelIdeal.Gen.V m c Cert.KernelIdeal.main_v7)
      (Cert.KernelIdeal.Gen.V m c Cert.KernelIdeal.main_v8) (Cert.KernelIdeal.Gen.V m c Cert.KernelIdeal.main_v9)
      (Cert.KernelIdeal.Gen.V m c Cert.KernelIdeal.main_arg4) (Cert.KernelIdeal.Gen.V m c Cert.KernelIdeal.main_v10)
      (Cert.KernelIdeal.Gen.V m c Cert.KernelIdeal.main_arg6) = _
  rw [Cert.KernelIdeal.Staged.found_0 m c, Cert.KernelIdeal.Staged.found_1 m c, Cert.KernelIdeal.Staged.V_wsrc m c,
    Cert.KernelIdeal.Staged.V_wdst m c, Cert.KernelIdeal.Staged.V_wcls m c, Cert.KernelIdeal.Gen.V_main_arg4 m c,
    Cert.KernelIdeal.Gen.V_main_arg6 m c,
    Cert.KernelIdeal.Staged.filled_eq_rows (F := Ideal) (m ((c : Thread Cert.KernelIdeal.nD Cert.KernelIdeal.τ).loc Cert.KernelIdeal.main_arg0)) (Cert.KernelIdeal.Staged.sources (m ((c : Thread Cert.KernelIdeal.nD Cert.KernelIdeal.τ).loc Cert.KernelIdeal.main_arg1))) (fun k => hr _),
    Cert.KernelIdeal.Staged.filled_eq_rows (F := Ideal) (m ((c : Thread Cert.KernelIdeal.nD Cert.KernelIdeal.τ).loc Cert.KernelIdeal.main_arg0)) (Cert.KernelIdeal.Staged.destinations (m ((c : Thread Cert.KernelIdeal.nD Cert.KernelIdeal.τ).loc Cert.KernelIdeal.main_arg1))) (fun k => hr _)]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array (KernelArray, Staged) and the reference's (its run read stage by stage, RefLogits) are
    `logits` of the same gathered rows and the same weight arrays. -/
theorem algebraic : Cert.algebraic_KernelIdeal_ReferenceIdeal := by
  intro m ρ m' ρ' hpre hagree
  refine ⟨fun c => Cert.KernelIdeal.ArrayValue.found m c, Cert.KernelIdeal.ArrayValue.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  show _ = Cert.KernelIdeal.ArrayValue.found m c
  rw [(h c).1, Cert.ReferenceIdeal.Read.val_main_v27_eq, Cert.ReferenceIdeal.RefValue.result_eq, a0, a1, a2, a3, a4, a5, a6,
    kernel_value m hpre c, ref_rows_src, ref_rows_dst]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
